-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_510" .f32 0x3B008081#32 ((1 / 510 : ℝ) : EReal)
  ∧ IdealRules.named_const.Statement Cert.KernelIdeal.κ "inv_510" .f32 0x3B008081#32 ((1 / 510 : ℝ) : EReal)
  ∧ IdealRules.named_const.Statement Cert.KernelIdeal.κ "inv_510" .f32 0x3B008081#32 ((1 / 510 : ℝ) : EReal)
  ∧ IdealRules.named_const.Statement Cert.KernelIdeal.κ "inv_510" .f32 0x3B008081#32 ((1 / 510 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x10 : Shape := ⟨2, ![64, 10]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel

variable [Facts]

def fn {F : FTy → Type} [FloatOps F] (main_arg0 : FVec F S64x512x1024 .f32) (main_arg1 : IVec S64x10 32) (main_arg2 : IVec S64x10 32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  main_v3
-- ==== Kernel.lean ====
abbrev S64x512x1024 : Shape := ⟨3, ![64, 512, 1024]⟩
abbrev S64x10 : Shape := ⟨2, ![64, 10]⟩
abbrev S_ : Shape := ⟨0, ![]⟩
abbrev S64x10x1 : Shape := ⟨3, ![64, 10, 1]⟩
abbrev S64x10x2 : Shape := ⟨3, ![64, 10, 2]⟩
abbrev S64x10x1024 : Shape := ⟨3, ![64, 10, 1024]⟩
abbrev S64x1x128 : Shape := ⟨3, ![64, 1, 128]⟩
abbrev S4x512x1024 : Shape := ⟨3, ![4, 512, 1024]⟩
abbrev S4x10x1024 : Shape := ⟨3, ![4, 10, 1024]⟩
abbrev S4x1x128 : Shape := ⟨3, ![4, 1, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x10x1024 : Shape := ⟨3, ![1, 10, 1024]⟩
abbrev S10x1024 : Shape := ⟨2, ![10, 1024]⟩
abbrev S10 : Shape := ⟨1, ![10]⟩
abbrev S10x1 : Shape := ⟨2, ![10, 1]⟩
abbrev S512x10 : Shape := ⟨2, ![512, 10]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩
abbrev S64x1x1 : Shape := ⟨3, ![64, 1, 1]⟩
abbrev S64 : Shape := ⟨1, ![64]⟩

abbrev nBuf : Space → Nat
  | .hbm => 28
  | .vmem => 6
  | .smem => 0
  | _ => 0

abbrev bufTy : (tb : Table) → Fin (tcTables nBuf tb) → BufTy
  | .hbm, ⟨0, _⟩ => ⟨S64x512x1024, .f32⟩
  | .hbm, ⟨1, _⟩ => ⟨S64x10, .i32⟩
  | .hbm, ⟨2, _⟩ => ⟨S64x10, .i32⟩
  | .hbm, ⟨3, _⟩ => ⟨S_, .i32⟩
  | .hbm, ⟨4, _⟩ => ⟨S64x10, .i32⟩
  | .hbm, ⟨5, _⟩ => ⟨S64x10, .i1⟩
  | .hbm, ⟨6, _⟩ => ⟨S_, .i32⟩
  | .hbm, ⟨7, _⟩ => ⟨S64x10, .i32⟩
  | .hbm, ⟨8, _⟩ => ⟨S64x10, .i32⟩
  | .hbm, ⟨9, _⟩ => ⟨S64x10, .i32⟩
  | .hbm, ⟨10, _⟩ => ⟨S_, .i32⟩
  | .hbm, ⟨11, _⟩ => ⟨S64x10, .i32⟩
  | .hbm, ⟨12, _⟩ => ⟨S64x10, .i1⟩
  | .hbm, ⟨13, _⟩ => ⟨S_, .i32⟩
  | .hbm, ⟨14, _⟩ => ⟨S64x10, .i32⟩
  | .hbm, ⟨15, _⟩ => ⟨S64x10, .i32⟩
  | .hbm, ⟨16, _⟩ => ⟨S64x10, .i32⟩
  | .hbm, ⟨17, _⟩ => ⟨S64x10x1, .i32⟩
  | .hbm, ⟨18, _⟩ => ⟨S64x10x1, .i32⟩
  | .hbm, ⟨19, _⟩ => ⟨S64x10x2, .i32⟩
  | .hbm, ⟨20, _⟩ => ⟨S64x10x1024, .f32⟩
  | .hbm, ⟨21, _⟩ => ⟨S64x1x128, .f32⟩
  | .hbm, ⟨22, _⟩ => ⟨S64x1x1, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4x512x1024, .f32⟩
  | .local _ .vmem, ⟨1, _⟩ => ⟨S4x512x1024, .f32⟩
  | .local _ .vmem, ⟨2, _⟩ => ⟨S4x10x1024, .f32⟩
  | .local _ .vmem, ⟨3, _⟩ => ⟨S4x10x1024, .f32⟩
  | .local _ .vmem, ⟨4, _⟩ => ⟨S4x1x128, .f32⟩
  | .local _ .vmem, ⟨5, _⟩ => ⟨S4x1x128, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x10x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x10 : S_.BroadcastsInDim S64x10 (![] : Fin 0 → Fin S64x10.rank)
  bcast_S64x10_S64x10x1_0_1 : S64x10.BroadcastsInDim S64x10x1 (![0, 1] : Fin 2 → Fin S64x10x1.rank)
  concatenates_S64x10x1_S64x10x1_S64x10x2_d2 : Shape.Concatenates [S64x10x1, S64x10x1] S64x10x2 2
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  rotates_S512x1024_d0 : S512x1024.Rotates 0 none
  inb_S4x10x1024_S1x10x1024_0_0_0 : ∀ a, (![0, 0, 0] : Fin 3 → Nat) a + S1x10x1024.size a ≤ S4x10x1024.size a
  h_S1x10x1024 : 0 < S1x10x1024.numel
  shapeCasts_S1x10x1024_S10x1024 : S1x10x1024.ShapeCasts S10x1024
  reduces_S10x1024_S10 : S10x1024.Reduces [1] S10
  shapeCasts_S10_S10x1 : S10.ShapeCasts S10x1
  broadcasts_S10x1_S10x1024 : S10x1.Broadcasts S10x1024
  bitsLt_bf16_f32 : FTy.bits .bf16 < FTy.bits .f32
  reduces_S512x10_S512 : S512x10.Reduces [1] S512
  iota_S512x1_d0_w32 : S512x1.Iotas .tc 32 [0]
  reduces_S512x1_S1 : S512x1.Reduces [0] S1
  shapeCasts_S1_S1x1 : S1.ShapeCasts S1x1
  shapeCasts_S1x1_S1x1 : S1x1.ShapeCasts S1x1
  broadcasts_S1x1_S1x128 : S1x1.Broadcasts S1x128
  inb_S4x1x128_S1x1x128_0_0_0 : ∀ a, (![0, 0, 0] : Fin 3 → Nat) a + S1x1x128.size a ≤ S4x1x128.size a
  h_S1x1x128 : 0 < S1x1x128.numel
  shapeCasts_S1x1x128_S1x128 : S1x1x128.ShapeCasts S1x128
  shapeCasts_S1x128_S1x1x128 : S1x128.ShapeCasts S1x1x128
  inb_S4x512x1024_S1x512x1024_1_0_0 : ∀ a, (![1, 0, 0] : Fin 3 → Nat) a + S1x512x1024.size a ≤ S4x512x1024.size a
  inb_S4x10x1024_S1x10x1024_1_0_0 : ∀ a, (![1, 0, 0] : Fin 3 → Nat) a + S1x10x1024.size a ≤ S4x10x1024.size a
  inb_S4x1x128_S1x1x128_1_0_0 : ∀ a, (![1, 0, 0] : Fin 3 → Nat) a + S1x1x128.size a ≤ S4x1x128.size a
  inb_S4x512x1024_S1x512x1024_2_0_0 : ∀ a, (![2, 0, 0] : Fin 3 → Nat) a + S1x512x1024.size a ≤ S4x512x1024.size a
  inb_S4x10x1024_S1x10x1024_2_0_0 : ∀ a, (![2, 0, 0] : Fin 3 → Nat) a + S1x10x1024.size a ≤ S4x10x1024.size a
  inb_S4x1x128_S1x1x128_2_0_0 : ∀ a, (![2, 0, 0] : Fin 3 → Nat) a + S1x1x128.size a ≤ S4x1x128.size a
  inb_S4x512x1024_S1x512x1024_3_0_0 : ∀ a, (![3, 0, 0] : Fin 3 → Nat) a + S1x512x1024.size a ≤ S4x512x1024.size a
  inb_S4x10x1024_S1x10x1024_3_0_0 : ∀ a, (![3, 0, 0] : Fin 3 → Nat) a + S1x10x1024.size a ≤ S4x10x1024.size a
  inb_S4x1x128_S1x1x128_3_0_0 : ∀ a, (![3, 0, 0] : Fin 3 → Nat) a + S1x1x128.size a ≤ S4x1x128.size a
  slices_S64x1x128_S64x1x1_0_0_0 : S64x1x128.Slices ![0, 0, 0] S64x1x1
  shapeCasts_S64x1x1_S64 : S64x1x1.ShapeCasts S64
  reducesTo_S64_S_d0 : S64.ReducesTo [0] S_
  h_S_ : 0 < S_.numel
  gather_S64x512x1024_S64x10x2_S64x10x1024_2_01_n_n_01_2_111024_wf : GatherDims.WF S64x512x1024 S64x10x2 S64x10x1024 [2] [0, 1] [] [0, 1] [] 2 ![1, 1, 1024]
  dot_S512x1024_S10x1024_S512x10_1_1_0_0_n_n_wf : DotDims.WF S512x1024 S10x1024 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S64x512x1024.size a
  hwx0_0 : ∀ i : grid0.Coords, EltTy.bits .f32 = 32 ∨ (Rect.block (s := S64x512x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x10x1024.size a ≤ S64x10x1024.size a
  hwx0_1 : ∀ i : grid0.Coords, EltTy.bits .f32 = 32 ∨ (Rect.block (s := S64x10x1024) S4x10x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x128.size a ≤ S64x1x128.size a
  hwx0_2 : ∀ i : grid0.Coords, EltTy.bits .f32 = 32 ∨ (Rect.block (s := S64x1x128) S4x1x128.size (cc0_transform_2 i) (hinb0_2 i)).WholeWords (EltTy.packing .f32)

variable [Facts₀]

def gather_S64x512x1024_S64x10x2_S64x10x1024_2_01_n_n_01_2_111024 : GatherDims S64x512x1024 S64x10x2 S64x10x1024 where
  offsetDims := [2]
  collapsedSliceDims := [0, 1]
  operandBatchingDims := []
  startIndicesBatchingDims := []
  startIndexMap := [0, 1]
  indexVectorDim := 2
  sliceSizes := ![1, 1, 1024]
  wf := gather_S64x512x1024_S64x10x2_S64x10x1024_2_01_n_n_01_2_111024_wf
def dot_S512x1024_S10x1024_S512x10_1_1_0_0_n_n : DotDims S512x1024 S10x1024 S512x10 where
  lhsContracting := [1]
  rhsContracting := [1]
  lhsNonContracting := [0]
  rhsNonContracting := [0]
  lhsBatch := []
  rhsBatch := []
  wf := dot_S512x1024_S10x1024_S512x10_1_1_0_0_n_n_wf

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4x10x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x10 : Shape := ⟨2, ![64, 10]⟩
abbrev S64x510x1024 : Shape := ⟨3, ![64, 510, 1024]⟩
abbrev S_ : Shape := ⟨0, ![]⟩
abbrev S64x510 : Shape := ⟨2, ![64, 510]⟩
abbrev S64x510x1 : Shape := ⟨3, ![64, 510, 1]⟩
abbrev S64x10x1 : Shape := ⟨3, ![64, 10, 1]⟩
abbrev S64x10x2 : Shape := ⟨3, ![64, 10, 2]⟩
abbrev S64x10x1024 : Shape := ⟨3, ![64, 10, 1024]⟩
abbrev S64x510x10 : Shape := ⟨3, ![64, 510, 10]⟩
abbrev S64 : Shape := ⟨1, ![64]⟩

abbrev nBuf : Space → Nat
  | .hbm => 80
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x10, .i32⟩
  | .hbm, ⟨2, _⟩ => ⟨S64x10, .i32⟩
  | .hbm, ⟨3, _⟩ => ⟨S64x510x1024, .f32⟩
  | .hbm, ⟨4, _⟩ => ⟨S64x510x1024, .f32⟩
  | .hbm, ⟨5, _⟩ => ⟨S64x510x1024, .f32⟩
  | .hbm, ⟨6, _⟩ => ⟨S_, .f32⟩
  | .hbm, ⟨7, _⟩ => ⟨S64x510, .f32⟩
  | .hbm, ⟨8, _⟩ => ⟨S64x510x1, .f32⟩
  | .hbm, ⟨9, _⟩ => ⟨S64x510x1, .f32⟩
  | .hbm, ⟨10, _⟩ => ⟨S_, .f32⟩
  | .hbm, ⟨11, _⟩ => ⟨S64x510x1, .f32⟩
  | .hbm, ⟨12, _⟩ => ⟨S64x510x1, .f32⟩
  | .hbm, ⟨13, _⟩ => ⟨S64x510x1024, .f32⟩
  | .hbm, ⟨14, _⟩ => ⟨S64x510x1024, .f32⟩
  | .hbm, ⟨15, _⟩ => ⟨S64x510x1024, .f32⟩
  | .hbm, ⟨16, _⟩ => ⟨S_, .f32⟩
  | .hbm, ⟨17, _⟩ => ⟨S64x510, .f32⟩
  | .hbm, ⟨18, _⟩ => ⟨S64x510x1, .f32⟩
  | .hbm, ⟨19, _⟩ => ⟨S64x510x1, .f32⟩
  | .hbm, ⟨20, _⟩ => ⟨S_, .f32⟩
  | .hbm, ⟨21, _⟩ => ⟨S64x510x1, .f32⟩
  | .hbm, ⟨22, _⟩ => ⟨S64x510x1, .f32⟩
  | .hbm, ⟨23, _⟩ => ⟨S64x510x1024, .f32⟩
  | .hbm, ⟨24, _⟩ => ⟨S64x510x1024, .f32⟩
  | .hbm, ⟨25, _⟩ => ⟨S64x510x1024, .f32⟩
  | .hbm, ⟨26, _⟩ => ⟨S_, .f32⟩
  | .hbm, ⟨27, _⟩ => ⟨S64x510, .f32⟩
  | .hbm, ⟨28, _⟩ => ⟨S_, .f32⟩
  | .hbm, ⟨29, _⟩ => ⟨S64x510, .f32⟩
  | .hbm, ⟨30, _⟩ => ⟨S64x510, .f32⟩
  | .hbm, ⟨31, _⟩ => ⟨S_, .i32⟩
  | .hbm, ⟨32, _⟩ => ⟨S64x10, .i32⟩
  | .hbm, ⟨33, _⟩ => ⟨S64x10, .i1⟩
  | .hbm, ⟨34, _⟩ => ⟨S_, .i32⟩
  | .hbm, ⟨35, _⟩ => ⟨S64x10, .i32⟩
  | .hbm, ⟨36, _⟩ => ⟨S64x10, .i32⟩
  | .hbm, ⟨37, _⟩ => ⟨S64x10, .i32⟩
  | .hbm, ⟨38, _⟩ => ⟨S_, .i32⟩
  | .hbm, ⟨39, _⟩ => ⟨S64x10, .i32⟩
  | .hbm, ⟨40, _⟩ => ⟨S64x10, .i1⟩
  | .hbm, ⟨41, _⟩ => ⟨S_, .i32⟩
  | .hbm, ⟨42, _⟩ => ⟨S64x10, .i32⟩
  | .hbm, ⟨43, _⟩ => ⟨S64x10, .i32⟩
  | .hbm, ⟨44, _⟩ => ⟨S64x10, .i32⟩
  | .hbm, ⟨45, _⟩ => ⟨S64x10x1, .i32⟩
  | .hbm, ⟨46, _⟩ => ⟨S64x10x1, .i32⟩
  | .hbm, ⟨47, _⟩ => ⟨S64x10x2, .i32⟩
  | .hbm, ⟨48, _⟩ => ⟨S64x10x1024, .f32⟩
  | .hbm, ⟨49, _⟩ => ⟨S64x10x1024, .f32⟩
  | .hbm, ⟨50, _⟩ => ⟨S_, .f32⟩
  | .hbm, ⟨51, _⟩ => ⟨S64x10, .f32⟩
  | .hbm, ⟨52, _⟩ => ⟨S64x10x1, .f32⟩
  | .hbm, ⟨53, _⟩ => ⟨S64x10x1, .f32⟩
  | .hbm, ⟨54, _⟩ => ⟨S_, .f32⟩
  | .hbm, ⟨55, _⟩ => ⟨S64x10x1, .f32⟩
  | .hbm, ⟨56, _⟩ => ⟨S64x10x1, .f32⟩
  | .hbm, ⟨57, _⟩ => ⟨S64x10x1024, .f32⟩
  | .hbm, ⟨58, _⟩ => ⟨S64x10x1024, .f32⟩
  | .hbm, ⟨59, _⟩ => ⟨S64x510x10, .f32⟩
  | .hbm, ⟨60, _⟩ => ⟨S_, .f32⟩
  | .hbm, ⟨61, _⟩ => ⟨S64x510x10, .f32⟩
  | .hbm, ⟨62, _⟩ => ⟨S64x510x10, .f32⟩
  | .hbm, ⟨63, _⟩ => ⟨S64x510, .f32⟩
  | .hbm, ⟨64, _⟩ => ⟨S64x510x10, .f32⟩
  | .hbm, ⟨65, _⟩ => ⟨S_, .f32⟩
  | .hbm, ⟨66, _⟩ => ⟨S64x510, .f32⟩
  | .hbm, ⟨67, _⟩ => ⟨S64x510, .f32⟩
  | .hbm, ⟨68, _⟩ => ⟨S64x510, .f32⟩
  | .hbm, ⟨69, _⟩ => ⟨S64x510, .f32⟩
  | .hbm, ⟨70, _⟩ => ⟨S64x510, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  slices_S64x512x1024_S64x510x1024_0_1_0 : S64x512x1024.Slices ![0, 1, 0] S64x510x1024
  slices_S64x512x1024_S64x510x1024_0_2_0 : S64x512x1024.Slices ![0, 2, 0] S64x510x1024
  reducesTo_S64x510x1024_S64x510_d2 : S64x510x1024.ReducesTo [2] S64x510
  h_S_ : 0 < S_.numel
  bcast_S64x510_S64x510x1_0_1 : S64x510.BroadcastsInDim S64x510x1 (![0, 1] : Fin 2 → Fin S64x510x1.rank)
  bcast_S_S64x510x1 : S_.BroadcastsInDim S64x510x1 (![] : Fin 0 → Fin S64x510x1.rank)
  bcast_S64x510x1_S64x510x1024_0_1_2 : S64x510x1.BroadcastsInDim S64x510x1024 (![0, 1, 2] : Fin 3 → Fin S64x510x1024.rank)
  bcast_S_S64x510 : S_.BroadcastsInDim S64x510 (![] : Fin 0 → Fin S64x510.rank)
  bcast_S_S64x10 : S_.BroadcastsInDim S64x10 (![] : Fin 0 → Fin S64x10.rank)
  bcast_S64x10_S64x10x1_0_1 : S64x10.BroadcastsInDim S64x10x1 (![0, 1] : Fin 2 → Fin S64x10x1.rank)
  concatenates_S64x10x1_S64x10x1_S64x10x2_d2 : Shape.Concatenates [S64x10x1, S64x10x1] S64x10x2 2
  reducesTo_S64x10x1024_S64x10_d2 : S64x10x1024.ReducesTo [2] S64x10
  bcast_S_S64x10x1 : S_.BroadcastsInDim S64x10x1 (![] : Fin 0 → Fin S64x10x1.rank)
  bcast_S64x10x1_S64x10x1024_0_1_2 : S64x10x1.BroadcastsInDim S64x10x1024 (![0, 1, 2] : Fin 3 → Fin S64x10x1024.rank)
  bcast_S_S64x510x10 : S_.BroadcastsInDim S64x510x10 (![] : Fin 0 → Fin S64x510x10.rank)
  reducesTo_S64x510x10_S64x510_d2 : S64x510x10.ReducesTo [2] S64x510
  reducesTo_S64x510_S64_d1 : S64x510.ReducesTo [1] S64
  bcast_S_S64 : S_.BroadcastsInDim S64 (![] : Fin 0 → Fin S64.rank)
  reducesTo_S64_S_d0 : S64.ReducesTo [0] S_
  gather_S64x512x1024_S64x10x2_S64x10x1024_2_01_n_n_01_2_111024_wf : GatherDims.WF S64x512x1024 S64x10x2 S64x10x1024 [2] [0, 1] [] [0, 1] [] 2 ![1, 1, 1024]
  dot_S64x510x1024_S64x10x1024_S64x510x10_2_2_1_1_0_0_wf : DotDims.WF S64x510x1024 S64x10x1024 S64x510x10 [2] [2] [1] [1] [0] [0]

variable [Facts₀]

def gather_S64x512x1024_S64x10x2_S64x10x1024_2_01_n_n_01_2_111024 : GatherDims S64x512x1024 S64x10x2 S64x10x1024 where
  offsetDims := [2]
  collapsedSliceDims := [0, 1]
  operandBatchingDims := []
  startIndicesBatchingDims := []
  startIndexMap := [0, 1]
  indexVectorDim := 2
  sliceSizes := ![1, 1, 1024]
  wf := gather_S64x512x1024_S64x10x2_S64x10x1024_2_01_n_n_01_2_111024_wf
def dot_S64x510x1024_S64x10x1024_S64x510x10_2_2_1_1_0_0 : DotDims S64x510x1024 S64x10x1024 S64x510x10 where
  lhsContracting := [2]
  rhsContracting := [2]
  lhsNonContracting := [1]
  rhsNonContracting := [1]
  lhsBatch := [0]
  rhsBatch := [0]
  wf := dot_S64x510x1024_S64x10x1024_S64x510x10_2_2_1_1_0_0_wf

class Facts : Prop extends Facts₀ where

variable [Facts]
-- ==== Proof.LibRows.lean ====
/-
  Row-wise reading of rank-2 vectors at the extended reals: a sum along the second axis read at a row, a sum down
  a column, a vector [R] recast as the column [R, 1], a column [R, 1] spread along the rows of [R, K], and a
  rotation of the rows, each at an entry named by its coordinates; and the pointwise square root, exponential and
  logarithm at an entry.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.Rows

open Idealize.ShloMosaic Idealize.ShloMosaic.ValueIdx

variable {α : Type}

/-- The sum along the second axis of an [R, K] vector, at row r: the sum over k of the entries (r, k). -/
theorem rowSum_apply {R K : Nat} {φ : FTy} (v : FVec Ideal ⟨2, ![R, K]⟩ φ) (acc : BitVec φ.bits)
    (h : (⟨2, ![R, K]⟩ : Shape).Reduces [1] ⟨1, ![R]⟩) (hφ : FKind.Formats φ) (hacc : acc = FKind.add.neutral φ hφ) (r : Fin R) :
    multiReduction .add [1] ⟨1, ![R]⟩ v acc h hφ hacc (ix1 r) = ∑ k : Fin K, v (ix2 r k) := by
  rw [Ideal.multiReduction_add_single]
  refine Finset.sum_congr rfl fun k _ => congrArg v ?_
  funext a
  apply Fin.ext
  rw [Shape.Reduces.lift_val]
  match a with
  | ⟨0, _⟩ => rfl
  | ⟨1, _⟩ => rfl

/-- The sum down the one column of an [R, 1] vector: the sum over r of the entries (r, 0). -/
theorem colSum_apply {R : Nat} {φ : FTy} (v : FVec Ideal ⟨2, ![R, 1]⟩ φ) (acc : BitVec φ.bits)
    (h : (⟨2, ![R, 1]⟩ : Shape).Reduces [0] ⟨1, ![1]⟩) (hφ : FKind.Formats φ) (hacc : acc = FKind.add.neutral φ hφ) (j : Fin 1) :
    multiReduction .add [0] ⟨1, ![1]⟩ v acc h hφ hacc (ix1 j) = ∑ r : Fin R, v (ix2 r (0 : Fin 1)) := by
  rw [Ideal.multiReduction_add_single]
  refine Finset.sum_congr rfl fun k _ => congrArg v ?_
  funext a
  apply Fin.ext
  rw [Shape.Reduces.lift_val]
  match a with
  | ⟨0, _⟩ => rfl
  | ⟨1, _⟩ => have := j.isLt; show j.val = 0; omega

/-- The same two sums for an f32 vector summed from the zero word, with the side conditions spelt as a printed
    program spells them (the format is f32 or bf16; the zero word is the zero word). -/
theorem rowSum_f32 {R K : Nat} (v : FVec Ideal ⟨2, ![R, K]⟩ .f32)
    (h : (⟨2, ![R, K]⟩ : Shape).Reduces [1] ⟨1, ![R]⟩) (hφ : FTy.f32 = FTy.f32 ∨ FTy.f32 = FTy.bf16)
    (hacc : (0x00000000#32 : BitVec 32) = 0x00000000#32) (r : Fin R) :
    multiReduction .add [1] ⟨1, ![R]⟩ v 0x00000000#32 h hφ hacc (ix1 r) = ∑ k : Fin K, v (ix2 r k) :=
  rowSum_apply v _ h hφ hacc r

theorem colSum_f32 {R : Nat} (v : FVec Ideal ⟨2, ![R, 1]⟩ .f32)
    (h : (⟨2, ![R, 1]⟩ : Shape).Reduces [0] ⟨1, ![1]⟩) (hφ : FTy.f32 = FTy.f32 ∨ FTy.f32 = FTy.bf16)
    (hacc : (0x00000000#32 : BitVec 32) = 0x00000000#32) (j : Fin 1) :
    multiReduction .add [0] ⟨1, ![1]⟩ v 0x00000000#32 h hφ hacc (ix1 j) = ∑ r : Fin R, v (ix2 r (0 : Fin 1)) :=
  colSum_apply v _ h hφ hacc j

/-- A vector [R] cast to the column [R, 1] reads, at (r, u), the operand at r. -/
theorem colCast_apply {R : Nat} (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [R, 1] spread over [R, K] reads, at (r, k), the column's entry (r, 0). -/
theorem colBcast_apply {R K : Nat} (v : (⟨2, ![R, 1]⟩ : Shape).Idx → α) (h : (⟨2, ![R, 1]⟩ : Shape).Broadcasts ⟨2, ![R, K]⟩)
    (r : Fin R) (k : Fin K) : broadcastTo ⟨2, ![R, K]⟩ v h (ix2 r k) = v (ix2 r (0 : Fin 1)) := by
  refine broadcastTo_apply v h (ix2 r k) (ix2 r (0 : Fin 1)) fun ax => ?_
  match ax with
  | ⟨0, _⟩ =>
    show r.val = if R = 1 then 0 else r.val
    split
    · have := r.isLt; omega
    · rfl
  | ⟨1, _⟩ => rfl

/-- The rows of an [R, K] vector rotated by an amount: row r of the result is the row the amount further back,
    around the end. -/
theorem rotRows_apply {R K : Nat} (sb : BitVec 32) (v : (⟨2, ![R, K]⟩ : Shape).Idx → α) (h : (⟨2, ![R, K]⟩ : Shape).Rotates 0 none)
    (r r' : Fin R) (k : Fin K) (hr : r'.val = (r.val + R - sb.toNat % R) % R) :
    dynamicRotate 0 sb none v h (ix2 r k) = v (ix2 r' k) :=
  dynamicRotate_apply 0 sb v h _ _ (fun b => by
    match b with
    | ⟨0, _⟩ =>
      split
      · exact hr
      · rename_i hne; exact absurd (Fin.ext rfl) hne
    | ⟨1, _⟩ =>
      split
      · rename_i he; exact absurd (congrArg Fin.val he) (Nat.succ_ne_zero 0)
      · rfl)

variable {s : Shape} {φ : FTy}

/-- The pointwise square root, exponential and logarithm at an entry. -/
theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl

/-- A scalar float literal at the extended reals is the value its word denotes. -/
theorem scalar_ofBits (b : BitVec φ.bits) : Scalar.ofBits (F := Ideal) φ b = Ideal.ofBits φ b := rfl

end Cert.Rows

end
-- ==== Proof.LibDotRows.lean ====
/-
  The matrix unit's product of an `[R, K]` matrix with the TRANSPOSE of a `[C, K]` matrix — both operands contracted
  on their second axis — into a zero accumulator, read at an entry, at the extended reals: entry `(r, c)` is the sum
  over `k` of `x (r, k) · g (c, k)`, the inner product of row `r` of the left operand with row `c` of the right one.
-/
import Idealize.ShloMosaic.PureOps.Ideal
import Idealize.ShloMosaic.PureOps.Ideal.Laws
import Idealize.ShloMosaic.Lib.ValueIdx

noncomputable section

open scoped BigOperators

namespace Cert.DotRows

open Idealize.ShloMosaic Idealize.ShloMosaic.ValueIdx

/-- The dimension numbers of rows against rows: contract the left operand's axis 1 with the right operand's axis 1. -/
abbrev rr (R K C : Nat) (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ := ⟨[1], [1], [0], [0], [], [], wf⟩

/-- The left operand's index on axis 0 is the result index's row. -/
theorem lhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 0).val = (j 0).val := by
  unfold DotDims.lhsIdx
  rw [dif_neg (show ¬(0 : Fin (⟨2, ![R, K]⟩ : Shape).rank) ∈ (rr R K C wf).lhsBatch from List.not_mem_nil),
    dif_pos (show (0 : Fin (⟨2, ![R, K]⟩ : Shape).rank) ∈ (rr R K C wf).lhsNonContracting from List.mem_singleton.mpr rfl)]
  rfl

/-- The left operand's index on axis 1 is the contraction position's one coordinate. -/
theorem lhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 1).val = (q ⟨0, Nat.one_pos⟩).val :=
  (rr R K C wf).lhsIdx_val_of_single rfl j q

/-- The right operand's index on axis 0 is the result index's column. -/
theorem rhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 0).val = (j 1).val := by
  unfold DotDims.rhsIdx
  rw [dif_neg (show ¬(0 : Fin (⟨2, ![C, K]⟩ : Shape).rank) ∈ (rr R K C wf).rhsBatch from List.not_mem_nil),
    dif_pos (show (0 : Fin (⟨2, ![C, K]⟩ : Shape).rank) ∈ (rr R K C wf).rhsNonContracting from List.mem_singleton.mpr rfl)]
  rfl

/-- The right operand's index on axis 1 is the contraction position's one coordinate. -/
theorem rhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 1).val = (q ⟨0, Nat.one_pos⟩).val :=
  (rr R K C wf).rhsIdx_val_of_single rfl j q

/-- THE PRODUCT AT `(r, c)`: into a zero accumulator, the inner product of the operands' rows `r` and `c`. -/
theorem matmul_zero_apply {R K C : Nat} {φ₁ φ₂ : FTy}
    (wf : DotDims.WF ⟨2, ![R, K]⟩ ⟨2, ![C, K]⟩ ⟨2, ![R, C]⟩ [1] [1] [0] [0] [] [])
    (prec : Option ContractPrecision) (x : FVec Ideal ⟨2, ![R, K]⟩ φ₁) (g : FVec Ideal ⟨2, ![C, K]⟩ φ₂) (r : Fin R) (c : Fin C) :
    matmul (rr R K C wf) prec x g (constant (F := Ideal) ⟨2, ![R, C]⟩ .f32 0x00000000#32) (ix2 r c)
      = ∑ k : Fin K, x (ix2 r k) * g (ix2 c k) := by
  refine (Ideal.matmul_constant_zero_apply (rr R K C wf) prec x g (ix2 r c)).trans ?_
  rw [← Equiv.sum_comp (contrEquiv1 (rr R K C wf) K rfl rfl).symm]
  refine Finset.sum_congr rfl fun k _ => ?_
  have hk := contrEquiv1_symm_val (rr R K C wf) K rfl rfl k
  have el : (rr R K C wf).lhsIdx (ix2 r c) ((contrEquiv1 (rr R K C wf) K rfl rfl).symm k) = ix2 r k :=
    funext fun a => Fin.ext (by
      match a with
      | ⟨0, _⟩ => exact lhs_0 wf _ _
      | ⟨1, _⟩ => exact (lhs_1 wf _ _).trans hk)
  have er : (rr R K C wf).rhsIdx (ix2 r c) ((contrEquiv1 (rr R K C wf) K rfl rfl).symm k) = ix2 c k :=
    funext fun a => Fin.ext (by
      match a with
      | ⟨0, _⟩ => exact rhs_0 wf _ _
      | ⟨1, _⟩ => exact (rhs_1 wf _ _).trans hk)
  rw [el, er]

end Cert.DotRows

end
-- ==== Proof.Spec.lean ====
/-
  The contrastive loss of one batch, as a function of its rows, at the extended reals.

  A batch is 512 rows of 1024 numbers and ten negative rows. A row is scaled by its clamped norm; the similarity of
  two rows is the inner product of the scaled rows over the temperature; the loss of row t is the negated logarithm of
  exp(sim(t, t+1)) over exp(sim(t, t+1)) plus the sum over the negatives of exp(sim(t, k)); the batch's value is
  the mean of the losses of rows 1 to 510.

  Two spellings of that mean are compared here. One sums over all 512 rows a column that holds 0 - log(..) at rows 1 to
  510 and 0 at rows 0 and 511, pairs row t with row t+1 around the end, and multiplies the sum by the rational 1/510;
  the other sums -(log(..)) over the 510 rows and divides by 510. They agree at every extended real: the two
  masked rows add 0, the row after t is never the wrapped one for t up to 510, 0 - x is -x, and dividing by the real
  510 is multiplying by 1/510.
-/
import Idealize.ShloMosaic.PureOps.Ideal
import Idealize.ShloMosaic.PureOps.Ideal.Laws

noncomputable section

open scoped BigOperators

namespace Cert.Contrast

open Idealize.ShloMosaic

/-- The norm floor and the temperature: the values the two float words denote. -/
def floorW : EReal := Ideal.ofBits .f32 0x322BCC77#32
def tempW : EReal := Ideal.ofBits .f32 0x3D8F5C29#32

/-- A row's norm, clamped below by the floor. -/
def nrm (x : Fin 1024 → EReal) : EReal := max (Ideal.sqrt (∑ d : Fin 1024, x d * x d)) floorW

/-- A row scaled by its clamped norm. -/
def unit (x : Fin 1024 → EReal) (d : Fin 1024) : EReal := Ideal.div (x d) (nrm x)

/-- The similarity of two rows: the inner product of the scaled rows, over the temperature. -/
def sim (x y : Fin 1024 → EReal) : EReal := Ideal.div (∑ d : Fin 1024, unit x d * unit y d) tempW

/-- The logarithm inside a row's loss: of exp(sim to the next row) over that plus the negatives' exponentials. -/
def logRatio (x y : Fin 1024 → EReal) (n : Fin 10 → Fin 1024 → EReal) : EReal :=
  Ideal.log (Ideal.div (Ideal.exp (sim x y)) (Ideal.exp (sim x y) + ∑ k : Fin 10, Ideal.exp (sim x (n k))))

/-- The row after t, around the end. -/
def nextRow (t : Fin 512) : Fin 512 := ⟨(t.val + 512 - 511 % 512) % 512, Nat.mod_lt _ (by decide)⟩

/-- The mask of rows 1 to 510, as the word the comparison of the row number gives. -/
def valid (t : Fin 512) : BitVec 1 :=
  IntOp.andi (IntOp.cmpi .sge (BitVec.ofNat 32 t.val) 1#32) (IntOp.cmpi .sle (BitVec.ofNat 32 t.val) 510#32)

/-- The masked spelling: a sum over all 512 rows, times 1/510. -/
def maskedMean (X : Fin 512 → Fin 1024 → EReal) (n : Fin 10 → Fin 1024 → EReal) : EReal :=
  (∑ t : Fin 512, Scalar.select (valid t) (Ideal.ofBits .f32 0x00000000#32 - logRatio (X t) (X (nextRow t)) n) (Ideal.ofBits .f32 0x00000000#32))
    * ((1 / 510 : ℝ) : EReal)

/-- Row t + a of the 512, for t among the first 510 and a at most 2. -/
def shiftRow (a : Nat) (ha : a ≤ 2) (t : Fin 510) : Fin 512 := ⟨a + t.val, by have := t.isLt; omega⟩

/-- The sliced spelling: a sum over the 510 rows, divided by 510. -/
def slicedMean (X : Fin 512 → Fin 1024 → EReal) (n : Fin 10 → Fin 1024 → EReal) : EReal :=
  Ideal.div (∑ t : Fin 510, -(logRatio (X (shiftRow 1 (by decide) t)) (X (shiftRow 2 (by decide) t)) n)) (Ideal.ofBits .f32 0x43FF0000#32)

/-- The word 0x43FF0000 denotes 510. -/
theorem ofBits_510 : Ideal.ofBits .f32 0x43FF0000#32 = ((510 : ℝ) : EReal) := by
  simp [Ideal.ofBits, Ideal.ieee, -EReal.coe_mul]; norm_num

/-- The mask is one exactly at rows 1 to 510 (the 512 row numbers compared one by one). -/
theorem valid_eq : ∀ t : Fin 512, valid t = if 1 ≤ t.val ∧ t.val ≤ 510 then 1#1 else 0#1 := by
  decide +kernel

/-- A sum over 512 rows: the first row, the 510 rows between, and the last row. -/
theorem sum_ends (f : Fin 512 → EReal) :
    ∑ t : Fin 512, f t = f 0 + (∑ s : Fin 510, f (shiftRow 1 (by decide) s) + f 511) := by
  rw [Fin.sum_univ_succ (n := 511), Fin.sum_univ_castSucc (n := 510)]
  refine congrArg (f 0 + ·) (congrArg₂ (· + ·) (Finset.sum_congr rfl fun s _ => congrArg f (Fin.ext ?_)) (congrArg f (Fin.ext rfl)))
  show s.val + 1 = 1 + s.val
  omega

/-- THE TWO SPELLINGS AGREE, at every extended real. -/
theorem means_agree (X : Fin 512 → Fin 1024 → EReal) (n : Fin 10 → Fin 1024 → EReal) :
    maskedMean X n = slicedMean X n := by
  unfold maskedMean slicedMean
  rw [ofBits_510, Ideal.div_coe (by norm_num : (510 : ℝ) ≠ 0), sum_ends]
  refine congrArg (· * _) ?_
  have h0 : valid 0 = 0#1 := by rw [valid_eq]; rfl
  have h511 : valid 511 = 0#1 := by rw [valid_eq]; rfl
  have hz : Ideal.ofBits .f32 0x00000000#32 = 0 := Ideal.ofBits_zero_f32
  rw [h0, h511, hz]
  show 0 + (_ + 0) = _
  rw [zero_add, add_zero]
  refine Finset.sum_congr rfl fun s _ => ?_
  have hs : valid (shiftRow 1 (by decide) s) = 1#1 := by
    rw [valid_eq, if_pos]
    have := s.isLt
    exact ⟨by show 1 ≤ 1 + s.val; omega, by show 1 + s.val ≤ 510; omega⟩
  have hn : nextRow (shiftRow 1 (by decide) s) = shiftRow 2 (by decide) s := Fin.ext (by
    have := s.isLt
    show (1 + s.val + 512 - 511 % 512) % 512 = 2 + s.val
    omega)
  rw [hs, hn]
  show 0 - _ = _
  rw [zero_sub]

end Cert.Contrast

end
-- ==== Proof.Body.lean ====
/-
  One batch through the kernel's body, at the extended reals.

  The body handles the four batches of a block one after another with the same operations. For one batch it loads
  the 512 rows and the ten negative rows, scales every row by its clamped norm, pairs each row with the next one
  (the rows rotated by 511 places, so that row t meets row t + 1 around the end), forms the similarities, the
  column of 0 - log(..), masks it to rows 1 to 510 with a row counter, sums the column, multiplies by the named
  constant 1/510 and spreads the one number over the 128 lanes it stores. Read at any lane this is the masked
  spelling of the batch's mean loss (Cert.Contrast.maskedMean) of the loaded rows.
-/
import proofs.«416810_j49228915147547_3_alg».proof.Proof.Gen.KernelIdeal.Skeleton
import proofs.«416810_j49228915147547_3_alg».proof.Proof.LibRows
import proofs.«416810_j49228915147547_3_alg».proof.Proof.LibDotRows
import proofs.«416810_j49228915147547_3_alg».proof.Proof.Spec
import Idealize.ShloMosaic.Lib.ValueLayout
import Idealize.ShloMosaic.PureOps.IdealRules

noncomputable section

open scoped BigOperators

namespace Cert.KernelIdeal.Body

open Cert.KernelIdeal Cert.KernelIdeal.Gen Idealize.ShloMosaic Idealize.ShloMosaic.ValueIdx Cert.Rows Cert.Contrast

/-- The rows rotated by 511 places: row t of the result is row t + 1 of the operand, around the end. -/
theorem rot511_apply {α : Type} (v : S512x1024.Idx → α) (h : S512x1024.Rotates 0 none) (t : Fin 512) (k : Fin 1024) :
    dynamicRotate 0 511#32 none v h (ix2 t k) = v (ix2 (nextRow t) k) :=
  rotRows_apply 511#32 v h t (nextRow t) k rfl

/-- The product of the scaled rows with the transposed scaled negatives, at (t, k): the inner product of row t with
    negative k. -/
theorem negDot_apply (x : FVec Ideal S512x1024 .bf16) (g : FVec Ideal S10x1024 .bf16) (t : Fin 512) (k : Fin 10) :
    matmul dot_S512x1024_S10x1024_S512x10_1_1_0_0_n_n none x g (constant (F := Ideal) S512x10 .f32 0x00000000#32) (ix2 t k)
      = ∑ d : Fin 1024, x (ix2 t d) * g (ix2 k d) :=
  Cert.DotRows.matmul_zero_apply dot_S512x1024_S10x1024_S512x10_1_1_0_0_n_n_wf none x g t k

/-- The named constant is the rational 1/510. -/
theorem inv_510 : Named.named (F := Ideal) κ "inv_510" (φ := .f32) 0x3B008081#32 = ((1 / 510 : ℝ) : EReal) :=
  IdealRules.named_const.ideal_named_scalar _ _ _ _ rfl

/-- The column of losses before masking: at row t it is 0 - log(..) of row t, the row after it and the negatives. -/
theorem lossCol_apply (v1 : Vec Ideal S1x512x1024 .f32) (v18 : Vec Ideal S1x10x1024 .f32) (t : Fin 512) (u : Fin 1) :
    k0_pay2 (F := Ideal) v1 v18 (ix2 t u) = Ideal.ofBits .f32 0x00000000#32
      - logRatio (fun d => v1 (ix3 (0 : Fin 1) t d)) (fun d => v1 (ix3 (0 : Fin 1) (nextRow t) d)) (fun k d => v18 (ix3 (0 : Fin 1) k d)) := by
  unfold k0_pay2
  simp only [subf_apply, broadcast_apply, scalar_ofBits, log_apply, divf_apply, exp_apply, addf_apply, colCast_apply,
    rowSum_f32 (R := 512) (K := 1024), rowSum_f32 (R := 10) (K := 1024), rowSum_f32 (R := 512) (K := 10),
    mulf_apply, sqrt_apply, maximumf_apply, colBcast_apply, truncf_apply, shapeCast_1ab_ab_apply, rot511_apply (α := Ideal .f32), negDot_apply]
  rfl

/-- The mask the row counter gives at row t is the mask of rows 1 to 510. -/
theorem mask_apply (t : Fin 512) (u : Fin 1) :
    andi (cmpi .sge (iota .tc S512x1 32 [0] iota_S512x1_d0_w32) (broadcast S512x1 1#32))
      (cmpi .sle (iota .tc S512x1 32 [0] iota_S512x1_d0_w32) (broadcast S512x1 510#32)) (ix2 t u) = valid t := by
  show IntOp.andi (IntOp.cmpi .sge (iota .tc S512x1 32 [0] iota_S512x1_d0_w32 (ix2 t u)) 1#32)
    (IntOp.cmpi .sle (iota .tc S512x1 32 [0] iota_S512x1_d0_w32 (ix2 t u)) 510#32) = _
  rw [iota_single_apply]
  rfl

/-- Masked, summed, scaled and spread over the lanes: at any lane, the masked sum of the column times 1/510. -/
theorem spread_apply (col : FVec Ideal S512x1 .f32) (a b : Fin 1) (l : Fin 128) :
    k0_pay3 (F := Ideal) col (iota .tc S512x1 32 [0] iota_S512x1_d0_w32) (ix3 a b l)
      = (∑ t : Fin 512, Scalar.select (valid t) (col (ix2 t (0 : Fin 1))) (Ideal.ofBits .f32 0x00000000#32)) * ((1 / 510 : ℝ) : EReal) := by
  unfold k0_pay3
  simp only [shapeCast_ab_1ab_apply, colBcast_apply, shapeCast_self, mulf_apply, colCast_apply, colSum_f32 (R := 512),
    select_apply, broadcast_apply, scalar_ofBits, inv_510]
  refine congrArg (· * _) (Finset.sum_congr rfl fun r _ => ?_)
  rw [mask_apply]

/-- ONE BATCH: the body's stored vector for a batch, at any lane, is the masked mean of the loaded rows. -/
theorem batch_apply (v1 : Vec Ideal S1x512x1024 .f32) (v18 : Vec Ideal S1x10x1024 .f32) (a b : Fin 1) (l : Fin 128) :
    k0_pay3 (F := Ideal) (k0_pay2 v1 v18) (iota .tc S512x1 32 [0] iota_S512x1_d0_w32) (ix3 a b l)
      = maskedMean (fun t d => v1 (ix3 (0 : Fin 1) t d)) (fun k d => v18 (ix3 (0 : Fin 1) k d)) := by
  rw [spread_apply]
  simp only [lossCol_apply]
  rfl

end Cert.KernelIdeal.Body

end
-- ==== Proof.Block.lean ====
/-
  From the body's four stores to the kernel's output array, at the extended reals.

  A grid point holds four batches: a [4, 512, 1024] block of the rows and a [4, 10, 1024] block of the gathered
  negatives, and leaves a [4, 1, 128] block whose slab i holds, at every lane, the masked mean of batch i of the
  point. The four stores of the body are one text cut at different places; the three later ones are the first one
  word for word, so one reading serves all four. Point t's block is rows 4 t to 4 t + 3 of the [64, 1, 128]
  output array, the sixteen blocks tile it, and so the array after the region holds at (b, 0, l) the masked mean
  of batch b of the rows and of the gathered negatives as the region finds them.
-/
import proofs.«416810_j49228915147547_3_alg».proof.Proof.Gen.KernelIdeal.Frame
import proofs.«416810_j49228915147547_3_alg».proof.Proof.Body
import Idealize.ShloMosaic.Lib.Pipeline.Value

set_option maxRecDepth 16384

noncomputable section

open scoped BigOperators

namespace Cert.KernelIdeal.Block

open Cert.KernelIdeal Cert.KernelIdeal.Gen Idealize.ShloMosaic Idealize.ShloMosaic.TcCoe Idealize.ShloMosaic.ValueIdx
open Idealize.SL.Sem Cert.Contrast Cert.KernelIdeal.Body
open Idealize.ShloMosaic.Pipeline (Dat Cfg Window)

/-! ## The four stores are one text -/

section Same
variable {F : FTy → Type} [FloatOps F] [Named F]

theorem second_same (v : Vec F S1x512x1024 .f32) (w : Vec F S1x10x1024 .f32) :
    k0_pay8 (k0_pay4 v) (k0_pay5 v) (k0_pay6 w) (k0_pay7 w)
      = k0_pay3 (k0_pay2 v w) (iota .tc S512x1 32 [0] iota_S512x1_d0_w32) := rfl

theorem third_same (v : Vec F S1x512x1024 .f32) (w : Vec F S1x10x1024 .f32) :
    k0_pay12 (k0_pay11 (k0_pay9 v) (k0_pay10 v) w)
      = k0_pay3 (k0_pay2 v w) (iota .tc S512x1 32 [0] iota_S512x1_d0_w32) := rfl

theorem fourth_same (v : Vec F S1x512x1024 .f32) (w : Vec F S1x10x1024 .f32) :
    k0_pay1 (k0_pay14 v) (k0_pay15 v w)
      = k0_pay3 (k0_pay2 v w) (iota .tc S512x1 32 [0] iota_S512x1_d0_w32) := rfl

end Same

/-! ## A block's slab -/

/-- The masked mean of batch i of a point's two blocks. -/
def slabMean (x0 : Vec Ideal S4x512x1024 .f32) (x1 : Vec Ideal S4x10x1024 .f32) (i : Fin 4) : EReal :=
  maskedMean (fun t d => x0 (ix3 i t d)) (fun k d => x1 (ix3 i k d))

/-- The store of batch i: the one text at slabs i of the two blocks, at any entry, is slab i's masked mean. -/
theorem store_apply (x0 : Vec Ideal S4x512x1024 .f32) (x1 : Vec Ideal S4x10x1024 .f32) (i : Fin 4)
    (inb0 : ∀ a, (![i.val, 0, 0] : Fin 3 → Nat) a + S1x512x1024.size a ≤ S4x512x1024.size a)
    (inb1 : ∀ a, (![i.val, 0, 0] : Fin 3 → Nat) a + S1x10x1024.size a ≤ S4x10x1024.size a) (x : S1x1x128.Idx) :
    k0_pay3 (F := Ideal) (k0_pay2 (View.ld x0 (Rect.unit (s := S4x512x1024) ![i.val, 0, 0] S1x512x1024.size inb0))
        (View.ld x1 (Rect.unit (s := S4x10x1024) ![i.val, 0, 0] S1x10x1024.size inb1)))
      (iota .tc S512x1 32 [0] iota_S512x1_d0_w32) x = slabMean x0 x1 i := by
  obtain ⟨a, b, l, rfl⟩ : ∃ (a : Fin 1) (b : Fin 1) (l : Fin 128), x = ix3 a b l := ⟨x 0, x 1, x 2, eq_ix3 x⟩
  refine (batch_apply _ _ a b l).trans ?_
  unfold slabMean
  refine congrArg₂ maskedMean (funext fun t => funext fun d => congrArg x0 ?_) (funext fun k => funext fun d => congrArg x1 ?_)
  · funext a; apply Fin.ext
    match a with
    | ⟨0, _⟩ => show i.val + 1 * 0 = i.val; omega
    | ⟨1, _⟩ => show 0 + 1 * t.val = t.val; omega
    | ⟨2, _⟩ => show 0 + 1 * d.val = d.val; omega
  · funext a; apply Fin.ext
    match a with
    | ⟨0, _⟩ => show i.val + 1 * 0 = i.val; omega
    | ⟨1, _⟩ => show 0 + 1 * k.val = k.val; omega
    | ⟨2, _⟩ => show 0 + 1 * d.val = d.val; omega

/-- WHAT THE BODY LEAVES in the output block: at (i, 0, l), slab i's masked mean. -/
theorem out_apply (x0 : Vec Ideal S4x512x1024 .f32) (x1 : Vec Ideal S4x10x1024 .f32) (y : S4x1x128.Idx) :
    out0_2 x0 x1 y = slabMean x0 x1 ⟨(y 0).val, (y 0).isLt⟩ := by
  unfold out0_2
  refine View.canon_apply_of_pieces (Val := Elt Ideal) (fun y : S4x1x128.Idx => (slabMean x0 x1 ⟨(y 0).val, (y 0).isLt⟩ : Elt Ideal .f32)) _ ?_ y (cover0_2 _ _ _ _ y)
  intro p hp x
  simp only [List.mem_cons, List.mem_nil_iff, or_false] at hp
  rcases hp with rfl | rfl | rfl | rfl
  · refine ((congrFun (fourth_same _ _) x).trans (store_apply x0 x1 3 _ _ x)).trans (congrArg (slabMean x0 x1) (Fin.ext ?_))
    have h : (x 0).val < 1 := (x 0).isLt
    show 3 = 3 + 1 * (x 0).val
    omega
  · refine ((congrFun (third_same _ _) x).trans (store_apply x0 x1 2 _ _ x)).trans (congrArg (slabMean x0 x1) (Fin.ext ?_))
    have h : (x 0).val < 1 := (x 0).isLt
    show 2 = 2 + 1 * (x 0).val
    omega
  · refine ((congrFun (second_same _ _) x).trans (store_apply x0 x1 1 _ _ x)).trans (congrArg (slabMean x0 x1) (Fin.ext ?_))
    have h : (x 0).val < 1 := (x 0).isLt
    show 1 = 1 + 1 * (x 0).val
    omega
  · refine (store_apply x0 x1 0 _ _ x).trans (congrArg (slabMean x0 x1) (Fin.ext ?_))
    have h : (x 0).val < 1 := (x 0).isLt
    show 0 = 0 + 1 * (x 0).val
    omega

end Cert.KernelIdeal.Block

end
-- ==== Proof.Arr.lean ====
/-
  The kernel's output array after the region, at the extended reals: at (b, 0, l) the masked mean of batch b of the
  rows and of the gathered negatives as the region finds them.

  Point t's blocks are batches 4 t to 4 t + 3 of the three arrays (the index maps send t to block (t, 0, 0)), so slab i
  of the point is batch 4 t + i of the arrays; the sixteen output blocks tile the [64, 1, 128] array.
-/
import proofs.«416810_j49228915147547_3_alg».proof.Proof.Block

set_option maxRecDepth 16384

noncomputable section

open scoped BigOperators

namespace Cert.KernelIdeal.Arr

open Cert.KernelIdeal Cert.KernelIdeal.Gen Idealize.ShloMosaic Idealize.ShloMosaic.TcCoe Idealize.ShloMosaic.ValueIdx
open Idealize.SL.Sem Cert.Contrast Cert.KernelIdeal.Body Cert.KernelIdeal.Block
open Idealize.ShloMosaic.Pipeline (Dat Cfg Window)

variable (m : (ℓ : Loc nD τ sig) → Buf (Elt Ideal) ℓ)

/-- The masked mean of batch b of the rows X and the negatives N. -/
def batchMean (X : S64x512x1024.Idx → Elt Ideal .f32) (N : S64x10x1024.Idx → Elt Ideal .f32) (b : Fin 64) : EReal :=
  maskedMean (fun t d => X (ix3 b t d)) (fun k d => N (ix3 b k d))

/-- The output array: every lane of row b holds batch b's masked mean. -/
def outArr (X : S64x512x1024.Idx → Elt Ideal .f32) (N : S64x10x1024.Idx → Elt Ideal .f32) : S64x1x128.Idx → Elt Ideal .f32 :=
  fun i => batchMean X N ⟨(i 0).val, (i 0).isLt⟩

/-- The printed index maps, decided over the grid: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT t WRITES BACK is block t of the output array's function of the arrays as the region finds them. -/
theorem flushed_eq (c : Dev nD) (t : Fin cfg0.N) :
    (dats m 0 c).flushed 2 t = ((cfg0.win 2).blk t).view.read (Elt Ideal) (outArr (V m c main_arg0) (V m c main_v13)) := by
  show (cfg0.win 2).cut (grid0.coords t) ((dats m 0 c).after 2 t) = _
  rw [after0_2]
  obtain ⟨e00, e01, e02, e10, e11, e12, e20, e21, e22⟩ := idx_facts t
  funext j
  show out0_2 (iblk m c 0 t) (iblk m c 1 t) j = outArr (V m c main_arg0) (V m c main_v13) (((cfg0.win 2).blk t).view.emb j)
  refine (out_apply (iblk m c 0 t) (iblk m c 1 t) j).trans ?_
  unfold slabMean outArr batchMean
  have hj : (j 0).val < 4 := (j 0).isLt
  refine congrArg₂ maskedMean (funext fun r => funext fun d => ?_) (funext fun k => funext fun d => ?_)
  · show V m c main_arg0 (((cfg0.win 0).blk t).view.emb (ix3 (⟨(j 0).val, hj⟩ : Fin 4) r d)) = _
    refine congrArg (V m c main_arg0) (funext fun a => Fin.ext ?_)
    match a with
    | ⟨0, _⟩ => show win0_0.index t (0 : Fin 3) * 4 + 1 * (j 0).val = win0_2.index t (0 : Fin 3) * 4 + 1 * (j 0).val; omega
    | ⟨1, _⟩ => show win0_0.index t (1 : Fin 3) * 512 + 1 * r.val = r.val; omega
    | ⟨2, _⟩ => show win0_0.index t (2 : Fin 3) * 1024 + 1 * d.val = d.val; omega
  · show V m c main_v13 (((cfg0.win 1).blk t).view.emb (ix3 (⟨(j 0).val, hj⟩ : Fin 4) k d)) = _
    refine congrArg (V m c main_v13) (funext fun a => Fin.ext ?_)
    match a with
    | ⟨0, _⟩ => show win0_1.index t (0 : Fin 3) * 4 + 1 * (j 0).val = win0_2.index t (0 : Fin 3) * 4 + 1 * (j 0).val; omega
    | ⟨1, _⟩ => show win0_1.index t (1 : Fin 3) * 10 + 1 * k.val = k.val; omega
    | ⟨2, _⟩ => show win0_1.index t (2 : Fin 3) * 1024 + 1 * d.val = d.val; omega

/-- An index of the output array is in point t's block iff each coordinate is in the block's range on its axis. -/
theorem mem_blk (t : Fin cfg0.N) (i : S64x1x128.Idx) :
    i ∈ ((cfg0.win 2).blk t).view.set ↔ ∀ a : Fin 3, win0_2.index t a * S4x1x128.size a ≤ (i a).val ∧ (i a).val < win0_2.index t a * S4x1x128.size a + S4x1x128.size a := by
  show i ∈ ((View.whole main_v14).slice (win0_2.rect t)).set ↔ _
  rw [View.set_slice_whole, Rect.mem_set_unit]
  exact Iff.rfl

/-- Every row b of the output array is in the block of point b / 4. -/
theorem cover (i : S64x1x128.Idx) : ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 128 := (i 2).isLt
  have hN : (i 0).val / 4 < cfg0.N := by show (i 0).val / 4 < grid0.N; rw [N_0]; omega
  obtain ⟨-, -, -, -, -, -, e20, e21, e22⟩ := idx_facts ⟨(i 0).val / 4, hN⟩
  refine ⟨⟨(i 0).val / 4, hN⟩, flush0_2 _, ?_⟩
  rw [mem_blk]
  intro a
  match a with
  | ⟨0, _⟩ =>
    show win0_2.index ⟨(i 0).val / 4, hN⟩ (0 : Fin 3) * 4 ≤ (i 0).val ∧ (i 0).val < win0_2.index ⟨(i 0).val / 4, hN⟩ (0 : Fin 3) * 4 + 4
    rw [e20]; show (i 0).val / 4 * 4 ≤ (i 0).val ∧ (i 0).val < (i 0).val / 4 * 4 + 4; omega
  | ⟨1, _⟩ =>
    show win0_2.index ⟨(i 0).val / 4, hN⟩ (1 : Fin 3) * 1 ≤ (i 1).val ∧ (i 1).val < win0_2.index ⟨(i 0).val / 4, hN⟩ (1 : Fin 3) * 1 + 1
    rw [e21]; omega
  | ⟨2, _⟩ =>
    show win0_2.index ⟨(i 0).val / 4, hN⟩ (2 : Fin 3) * 128 ≤ (i 2).val ∧ (i 2).val < win0_2.index ⟨(i 0).val / 4, hN⟩ (2 : Fin 3) * 128 + 128
    rw [e22]; omega

/-- THE OUTPUT ARRAY after the region. -/
theorem final (c : Dev nD) : (dats m 0 c).arrAt 2 cfg0.N = outArr (V m c main_arg0) (V m c main_v13) :=
  (dats m 0 c).arrAt_eq_of_cover 2 _ (fun t _ => flushed_eq m c t) cover

end Cert.KernelIdeal.Arr

end
-- ==== Proof.KRun.lean ====
/-
  The kernel's run read back, at the extended reals: the program's one result is the mean over the 64 batches of the
  per-batch masked means.

  Before the region the host gathers the negatives (the same gather the reference makes, kept as one function of
  the three arguments and never opened); the region fills the [64, 1, 128] output array; after it the host takes
  entry (b, 0, 0) of every row b, sums the 64 numbers from zero and divides by 64.
-/
import proofs.«416810_j49228915147547_3_alg».proof.Proof.Arr
import Idealize.ShloMosaic.Lib.StableHlo.Run

set_option maxRecDepth 16384

noncomputable section

namespace Cert.KernelIdeal.KRun

open Cert.KernelIdeal Cert.KernelIdeal.Gen Idealize.ShloMosaic Idealize.ShloMosaic.TcCoe Idealize.ShloMosaic.ValueIdx
open Idealize.SL.Sem Cert.Contrast Cert.KernelIdeal.Arr Idealize.ShloMosaic.StableHlo

variable (m : (ℓ : Loc nD τ sig) → Buf (Elt Ideal) ℓ) (ρ : Dev nD → PrngReg)

/-- The gathered negatives: row (b, k) is the row of the features the two index arrays name, a negative index
    counted from the end. One function of the three arguments. -/
def negs (x0 : (⟨S64x512x1024, .f32⟩ : BufTy).Contents (Elt Ideal)) (x1 x2 : (⟨S64x10, .i32⟩ : BufTy).Contents (Elt Ideal)) :
    (⟨S64x10x1024, .f32⟩ : BufTy).Contents (Elt Ideal) :=
  Host.gather gather_S64x512x1024_S64x10x2_S64x10x1024_2_01_n_n_01_2_111024 x0
    (concatenate S64x10x2 2
      [⟨S64x10x1, broadcastInDim S64x10x1 ![0, 1] bcast_S64x10_S64x10x1_0_1
          (select (cmpi .slt x1 (broadcastInDim S64x10 ![] bcast_S_S64x10 (constantI S_ 32 0#32)))
            (addi x1 (broadcastInDim S64x10 ![] bcast_S_S64x10 (constantI S_ 32 64#32))) x1)⟩,
        ⟨S64x10x1, broadcastInDim S64x10x1 ![0, 1] bcast_S64x10_S64x10x1_0_1
          (select (cmpi .slt x2 (broadcastInDim S64x10 ![] bcast_S_S64x10 (constantI S_ 32 0#32)))
            (addi x2 (broadcastInDim S64x10 ![] bcast_S_S64x10 (constantI S_ 32 512#32))) x2)⟩]
      concatenates_S64x10x1_S64x10x1_S64x10x2_d2)

/-- The region finds the second window's array at the gathered negatives of the arguments. -/
theorem V_negs (c : Dev nD) :
    V m c main_v13 = negs (m ((c : Thread nD τ).loc main_arg0)) (m ((c : Thread nD τ).loc main_arg1)) (m ((c : Thread nD τ).loc main_arg2)) := by
  show StableHlo.after hostOps0 (fun b => m (c, b)) (Proc.devRef .tc main_v13) = _
  after_results
  rfl

/-- The per-batch masked means of the arguments. -/
def perBatch (c : Dev nD) : S64.Idx → Elt Ideal .f32 := fun i =>
  batchMean (m ((c : Thread nD τ).loc main_arg0))
    (negs (m ((c : Thread nD τ).loc main_arg0)) (m ((c : Thread nD τ).loc main_arg1)) (m ((c : Thread nD τ).loc main_arg2)))
    ⟨(i 0).val, (i 0).isLt⟩

/-- The program's result: the sum from zero of the per-batch values, over 64. -/
def result (c : Dev nD) : Buf (Elt Ideal) ((c.tc : Thread nD τ).loc main_v18) :=
  Host.divf (F := Ideal) (Host.reduceAdd (perBatch m c) (constant S_ .f32 0x00000000#32) reducesTo_S64_S_d0 h_S_)
    (constant S_ .f32 0x42800000#32)

/-- The host lines after the region leave the result at that value. -/
theorem tail_eq (c : Dev nD) : Pipeline.afterTail₀ cfgs (dats m) 0 (V0 m) [hostOps1] c main_v18 = result m c := by
  unfold Pipeline.afterTail₀
  show StableHlo.after hostOps1 _ (Proc.devRef .tc main_v18) = _
  after_results
  have hA : Pipeline.withArrays (cfgs 0).spec c (V0 m c) (fun w => (dats m 0 c).arrAt w (cfgs 0).N) (Proc.devRef .tc main_v14)
      = outArr (V m c main_arg0) (V m c main_v13) :=
    (Pipeline.withArrays_arr spec0 launch0.win.arr_inj c _ _ 2).trans (final m c)
  rw [hA, V_main_arg0, V_negs]
  unfold result
  refine congrArg (fun u : S64.Idx → Elt Ideal .f32 => Host.divf (F := Ideal)
    (Host.reduceAdd u (constant S_ .f32 0x00000000#32) reducesTo_S64_S_d0 h_S_) (constant S_ .f32 0x42800000#32)) (funext fun i => ?_)
  obtain ⟨b, rfl⟩ : ∃ b : Fin 64, i = ix1 b := ⟨i 0, eq_ix1 i⟩
  show shapeCast S64 (extractStridedSlice S64x1x1 ![0, 0, 0]
    (outArr (m ((c : Thread nD τ).loc main_arg0)) (negs (m ((c : Thread nD τ).loc main_arg0)) (m ((c : Thread nD τ).loc main_arg1)) (m ((c : Thread nD τ).loc main_arg2))))
    slices_S64x1x128_S64x1x1_0_0_0) shapeCasts_S64x1x1_S64 (ix1 b) = _
  rw [shapeCast_apply _ shapeCasts_S64x1x1_S64 (ix1 b) (ix3 b (0 : Fin 1) (0 : Fin 1)) (by
      rw [Shape.rowMajor_val_three, Shape.rowMajor_val_one]; show (b.val * 1 + 0) * 1 + 0 = b.val; omega),
    extractStridedSlice_apply ![0, 0, 0] _ slices_S64x1x128_S64x1x1_0_0_0 (ix3 b (0 : Fin 1) (0 : Fin 1)) (ix3 b (0 : Fin 1) (0 : Fin 128)) (fun a => by
      match a with
      | ⟨0, _⟩ => show b.val = 0 + b.val; omega
      | ⟨1, _⟩ => rfl
      | ⟨2, _⟩ => rfl)]
  rfl

/-- THE KERNEL'S RUN: every weakly fair execution ends with the result at that value and the arguments unchanged. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefBatch.lean ====
/-
  The reference's per-batch value, at the extended reals.

  The reference slices the rows 1 to 510 (the anchors) and 2 to 511 (the positives) of every batch, scales both and
  the gathered negatives by their clamped norms, forms the similarities, and for each batch divides the sum over the
  510 rows of -(log(..)) by 510: read stage by stage at an index, its array of per-batch values is, at batch b, the
  sliced spelling of the batch's mean loss (Cert.Contrast.slicedMean) of the rows of batch b and of the gathered
  negatives of batch b. The gather itself is never opened: it is the same function of the arguments on both sides.
-/
import proofs.«416810_j49228915147547_3_alg».proof.Proof.Gen.ReferenceIdeal.Read
import proofs.«416810_j49228915147547_3_alg».proof.Proof.Spec

noncomputable section

open scoped BigOperators

namespace Cert.ReferenceIdeal.PerBatch

open Cert.ReferenceIdeal Cert.ReferenceIdeal.Read Idealize.ShloMosaic Idealize.ShloMosaic.ValueIdx Cert.Contrast

variable (x0 : (⟨S64x512x1024, .f32⟩ : BufTy).Contents (Elt Ideal)) (x1 x2 : (⟨S64x10, .i32⟩ : BufTy).Contents (Elt Ideal))

/-! ## The composed index maps, by coordinates -/

theorem i_v0 (b : Fin 64) (s : Fin 510) (d : Fin 1024) : idx_main_v0 (ix3 b s d) = ix3 b (shiftRow 1 (by decide) s) d :=
  funext fun a => Fin.ext (by match a with | ⟨0, _⟩ => rfl | ⟨1, _⟩ => rfl | ⟨2, _⟩ => rfl)
theorem i_v1 (b : Fin 64) (s : Fin 510) (d : Fin 1024) : idx_main_v1 (ix3 b s d) = ix3 b (shiftRow 2 (by decide) s) d :=
  funext fun a => Fin.ext (by match a with | ⟨0, _⟩ => rfl | ⟨1, _⟩ => rfl | ⟨2, _⟩ => rfl)
theorem i_v3 (b : Fin 64) (s : Fin 510) (d : Fin 1024) : idx_main_v3 (ix2 b s) d = ix3 b s d :=
  funext fun a => Fin.ext (by match a with | ⟨0, _⟩ => rfl | ⟨1, _⟩ => rfl | ⟨2, _⟩ => rfl)
theorem i_v4 (b : Fin 64) (s : Fin 510) (u : Fin 1) : idx_main_v4 (ix3 b s u) = ix2 b s :=
  funext fun a => Fin.ext (by match a with | ⟨0, _⟩ => rfl | ⟨1, _⟩ => rfl)
theorem i_v8 (b : Fin 64) (s : Fin 510) (d : Fin 1024) : idx_main_v8 (ix3 b s d) = ix3 b s (0 : Fin 1) :=
  funext fun a => Fin.ext (by match a with | ⟨0, _⟩ => rfl | ⟨1, _⟩ => rfl | ⟨2, _⟩ => rfl)
theorem i_v11 (b : Fin 64) (s : Fin 510) (d : Fin 1024) : idx_main_v11 (ix2 b s) d = ix3 b s d :=
  funext fun a => Fin.ext (by match a with | ⟨0, _⟩ => rfl | ⟨1, _⟩ => rfl | ⟨2, _⟩ => rfl)
theorem i_v12 (b : Fin 64) (s : Fin 510) (u : Fin 1) : idx_main_v12 (ix3 b s u) = ix2 b s :=
  funext fun a => Fin.ext (by match a with | ⟨0, _⟩ => rfl | ⟨1, _⟩ => rfl)
theorem i_v16 (b : Fin 64) (s : Fin 510) (d : Fin 1024) : idx_main_v16 (ix3 b s d) = ix3 b s (0 : Fin 1) :=
  funext fun a => Fin.ext (by match a with | ⟨0, _⟩ => rfl | ⟨1, _⟩ => rfl | ⟨2, _⟩ => rfl)
theorem i_v19 (b : Fin 64) (s : Fin 510) (d : Fin 1024) : idx_main_v19 (ix2 b s) d = ix3 b s d :=
  funext fun a => Fin.ext (by match a with | ⟨0, _⟩ => rfl | ⟨1, _⟩ => rfl | ⟨2, _⟩ => rfl)
theorem i_v37 (b : Fin 64) (k : Fin 10) (d : Fin 1024) : idx_main_v37 (ix2 b k) d = ix3 b k d :=
  funext fun a => Fin.ext (by match a with | ⟨0, _⟩ => rfl | ⟨1, _⟩ => rfl | ⟨2, _⟩ => rfl)
theorem i_v38 (b : Fin 64) (k : Fin 10) (u : Fin 1) : idx_main_v38 (ix3 b k u) = ix2 b k :=
  funext fun a => Fin.ext (by match a with | ⟨0, _⟩ => rfl | ⟨1, _⟩ => rfl)
theorem i_v42 (b : Fin 64) (k : Fin 10) (d : Fin 1024) : idx_main_v42 (ix3 b k d) = ix3 b k (0 : Fin 1) :=
  funext fun a => Fin.ext (by match a with | ⟨0, _⟩ => rfl | ⟨1, _⟩ => rfl | ⟨2, _⟩ => rfl)
theorem i_l44 (b : Fin 64) (s : Fin 510) (k : Fin 10) (d : Fin 1024) : lidx_main_v44 (ix3 b s k) d = ix3 b s d :=
  funext fun a => Fin.ext (by match a with | ⟨0, _⟩ => rfl | ⟨1, _⟩ => rfl | ⟨2, _⟩ => rfl)
theorem i_r44 (b : Fin 64) (s : Fin 510) (k : Fin 10) (d : Fin 1024) : ridx_main_v44 (ix3 b s k) d = ix3 b k d :=
  funext fun a => Fin.ext (by match a with | ⟨0, _⟩ => rfl | ⟨1, _⟩ => rfl | ⟨2, _⟩ => rfl)
theorem i_v49 (b : Fin 64) (s : Fin 510) (k : Fin 10) : idx_main_v49 (ix2 b s) k = ix3 b s k :=
  funext fun a => Fin.ext (by match a with | ⟨0, _⟩ => rfl | ⟨1, _⟩ => rfl | ⟨2, _⟩ => rfl)
theorem i_v54 (b : Fin 64) (s : Fin 510) : idx_main_v54 (ix1 b) s = ix2 b s :=
  funext fun a => Fin.ext (by match a with | ⟨0, _⟩ => rfl | ⟨1, _⟩ => rfl)

/-! ## The stages -/

/-- Row s + 1 of batch b, row s + 2 of batch b, and negative k of batch b. -/
abbrev anchor (b : Fin 64) (s : Fin 510) : Fin 1024 → EReal := fun d => x0 (ix3 b (shiftRow 1 (by decide) s) d)
abbrev positive (b : Fin 64) (s : Fin 510) : Fin 1024 → EReal := fun d => x0 (ix3 b (shiftRow 2 (by decide) s) d)
abbrev negative (b : Fin 64) (k : Fin 10) : Fin 1024 → EReal := fun d => val_main_v35 (F := Ideal) x0 x1 x2 (ix3 b k d)

/-- The scaled anchors. -/
theorem v9_at (b : Fin 64) (s : Fin 510) (d : Fin 1024) :
    val_main_v9 (F := Ideal) x0 (ix3 b s d) = unit (anchor x0 b s) d := by
  rw [val_main_v9_apply, val_main_v0_apply, val_main_v8_apply, i_v8, val_main_v7_apply, val_main_v5_apply, val_main_v4_apply, i_v4,
    val_main_v3_apply, val_main_v6_apply, val_main_cst_0_apply, val_main_cst_apply, i_v0]
  simp only [val_main_v2_apply, val_main_v0_apply, i_v3, i_v0, Ideal.hostDivf_def, Ideal.maximumf_def, Ideal.hostUnary_sqrt_def,
    Ideal.ofBits_def, Ideal.mulf_def, Ideal.ofBits_zero_f32, zero_add]
  rfl

/-- The scaled positives. -/
theorem v17_at (b : Fin 64) (s : Fin 510) (d : Fin 1024) :
    val_main_v17 (F := Ideal) x0 (ix3 b s d) = unit (positive x0 b s) d := by
  rw [val_main_v17_apply, val_main_v1_apply, val_main_v16_apply, i_v16, val_main_v15_apply, val_main_v13_apply, val_main_v12_apply, i_v12,
    val_main_v11_apply, val_main_v14_apply, val_main_cst_2_apply, val_main_cst_1_apply, i_v1]
  simp only [val_main_v10_apply, val_main_v1_apply, i_v11, i_v1, Ideal.hostDivf_def, Ideal.maximumf_def, Ideal.hostUnary_sqrt_def,
    Ideal.ofBits_def, Ideal.mulf_def, Ideal.ofBits_zero_f32, zero_add]
  rfl

/-- The scaled negatives. -/
theorem v43_at (b : Fin 64) (k : Fin 10) (d : Fin 1024) :
    val_main_v43 (F := Ideal) x0 x1 x2 (ix3 b k d) = unit (negative x0 x1 x2 b k) d := by
  rw [val_main_v43_apply, val_main_v42_apply, i_v42, val_main_v41_apply, val_main_v39_apply, val_main_v38_apply, i_v38,
    val_main_v37_apply, val_main_v40_apply, val_main_cst_9_apply, val_main_cst_8_apply]
  simp only [val_main_v36_apply, i_v37, Ideal.hostDivf_def, Ideal.maximumf_def, Ideal.hostUnary_sqrt_def,
    Ideal.ofBits_def, Ideal.mulf_def, Ideal.ofBits_zero_f32, zero_add]
  rfl

/-- The similarity of an anchor with its positive. -/
theorem v21_at (b : Fin 64) (s : Fin 510) :
    val_main_v21 (F := Ideal) x0 (ix2 b s) = sim (anchor x0 b s) (positive x0 b s) := by
  rw [val_main_v21_apply, val_main_v19_apply, val_main_v20_apply, val_main_cst_4_apply, val_main_cst_3_apply]
  simp only [val_main_v18_apply, i_v19, v9_at, v17_at, Ideal.hostDivf_def, Ideal.ofBits_def, Ideal.mulf_def, Ideal.ofBits_zero_f32, zero_add]
  rfl

/-- The similarity of an anchor with a negative. -/
theorem v46_at (b : Fin 64) (s : Fin 510) (k : Fin 10) :
    val_main_v46 (F := Ideal) x0 x1 x2 (ix3 b s k) = sim (anchor x0 b s) (negative x0 x1 x2 b k) := by
  rw [val_main_v46_apply, val_main_v44_apply, val_main_v45_apply, val_main_cst_10_apply]
  simp only [i_l44, i_r44, v9_at, v43_at, Ideal.hostDivf_def, Ideal.ofBits_def]
  rfl

/-- A row's loss. -/
theorem v53_at (b : Fin 64) (s : Fin 510) :
    val_main_v53 (F := Ideal) x0 x1 x2 (ix2 b s) = -(logRatio (anchor x0 b s) (positive x0 b s) (negative x0 x1 x2 b)) := by
  rw [val_main_v53_apply, val_main_v52_apply, val_main_v51_apply, val_main_v50_apply, val_main_v47_apply, val_main_v49_apply,
    val_main_cst_11_apply, v21_at]
  simp only [val_main_v48_apply, i_v49, v46_at, Ideal.hostDivf_def, Ideal.hostNegf_def, Ideal.negf_def, Ideal.hostUnary_log_def,
    Ideal.hostUnary_exp_def, Ideal.addf_def, Ideal.ofBits_def, Ideal.ofBits_zero_f32, zero_add]
  rfl

/-- THE PER-BATCH VALUE: the sliced mean of batch b's rows and gathered negatives. -/
theorem v56_at (b : Fin 64) :
    val_main_v56 (F := Ideal) x0 x1 x2 (ix1 b)
      = slicedMean (fun t d => x0 (ix3 b t d)) (fun k d => val_main_v35 (F := Ideal) x0 x1 x2 (ix3 b k d)) := by
  rw [val_main_v56_apply, val_main_v54_apply, val_main_v55_apply, val_main_cst_13_apply, val_main_cst_12_apply]
  simp only [i_v54, v53_at, Ideal.hostDivf_def, Ideal.ofBits_def, Ideal.ofBits_zero_f32, zero_add]
  rfl

end Cert.ReferenceIdeal.PerBatch

end
-- ==== Proof.Bridge.lean ====
/-
  The two programs compute one number, at the extended reals.

  Both end by summing 64 per-batch values from zero and dividing by 64. The kernel's per-batch value is the masked
  spelling of the batch's mean loss, the reference's the sliced spelling, of the same rows and the same gathered
  negatives (the gather is the same function of the arguments on both sides): the two spellings agree
  (Cert.Contrast.means_agree), so the results agree.
-/
import proofs.«416810_j49228915147547_3_alg».proof.Proof.KRun
import proofs.«416810_j49228915147547_3_alg».proof.Proof.RefBatch

noncomputable section

namespace Cert.Bridge

open Idealize.ShloMosaic Idealize.ShloMosaic.TcCoe Idealize.ShloMosaic.ValueIdx Idealize.SL.Sem Cert.Contrast

/-- The kernel's gather and the reference's are one function of the three arguments. -/
theorem negs_eq (x0 : (⟨Cert.KernelIdeal.S64x512x1024, .f32⟩ : BufTy).Contents (Elt Ideal))
    (x1 x2 : (⟨Cert.KernelIdeal.S64x10, .i32⟩ : BufTy).Contents (Elt Ideal)) :
    Cert.KernelIdeal.KRun.negs x0 x1 x2 = Cert.ReferenceIdeal.Read.val_main_v35 (F := Ideal) x0 x1 x2 := rfl

/-- Batch by batch the kernel's value is the reference's. -/
theorem perBatch_eq (x0 : (⟨Cert.KernelIdeal.S64x512x1024, .f32⟩ : BufTy).Contents (Elt Ideal))
    (x1 x2 : (⟨Cert.KernelIdeal.S64x10, .i32⟩ : BufTy).Contents (Elt Ideal)) (i : Cert.KernelIdeal.S64.Idx) :
    Cert.KernelIdeal.Arr.batchMean x0 (Cert.KernelIdeal.KRun.negs x0 x1 x2) ⟨(i 0).val, (i 0).isLt⟩
      = Cert.ReferenceIdeal.Read.val_main_v56 (F := Ideal) x0 x1 x2 i := by
  obtain ⟨b, rfl⟩ : ∃ b : Fin 64, i = ix1 b := ⟨i 0, eq_ix1 i⟩
  rw [Cert.ReferenceIdeal.PerBatch.v56_at, ← means_agree, negs_eq]
  rfl

/-- The kernel's result is the reference's result term of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.KRun.result m c
      = Cert.ReferenceIdeal.Read.val_main_v58 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.KRun.result Cert.ReferenceIdeal.Read.val_main_v58 Cert.ReferenceIdeal.Read.val_main_v57
  have hu : Cert.KernelIdeal.KRun.perBatch m c = Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    funext fun i => perBatch_eq _ _ _ i
  rw [hu]
  rfl

end Cert.Bridge

end
-- ==== Proof.lean ====
/-
  The kernel is the reference, over the extended reals.

  Both programs compute the contrastive loss of 64 batches of 512 rows against ten gathered negatives a batch. The
  kernel scales whole [512, 1024] blocks, pairs every row with the next by a rotation, masks rows 0 and 511 out of
  the column of losses and multiplies the masked sum by the named constant 1/510; the reference slices rows 1 to
  510 and 2 to 511, sums the 510 losses and divides by 510. At the extended reals the two spellings of a batch's
  mean are one number (Proof/Spec.lean), the body's four stores read as the masked spelling (Proof/Body.lean,
  Proof/Block.lean), the sixteen blocks tile the output array (Proof/Arr.lean), the host lines after the region
  average the 64 rows (Proof/KRun.lean), the reference read stage by stage is the sliced spelling
  (Proof/RefBatch.lean), and the two results are one (Proof/Bridge.lean). The frames of the two kernel programs
  are their generated frames, the reference's frame is its generated run with the result dropped, and each of the
  four ledger entries says that the certificate's table gives "inv_510" the value 1/510.
-/
import proofs.«416810_j49228915147547_3_alg».proof.Defs
import proofs.«416810_j49228915147547_3_alg».proof.Proof.Gen.Kernel
import proofs.«416810_j49228915147547_3_alg».proof.Proof.Gen.Kernel.Skeleton
import proofs.«416810_j49228915147547_3_alg».proof.Proof.Gen.Kernel.Launch
import proofs.«416810_j49228915147547_3_alg».proof.Proof.Gen.Kernel.Points
import proofs.«416810_j49228915147547_3_alg».proof.Proof.Gen.Kernel.Frame
import proofs.«416810_j49228915147547_3_alg».proof.Proof.Gen.KernelIdeal
import proofs.«416810_j49228915147547_3_alg».proof.Proof.Gen.KernelIdeal.Skeleton
import proofs.«416810_j49228915147547_3_alg».proof.Proof.Gen.KernelIdeal.Launch
import proofs.«416810_j49228915147547_3_alg».proof.Proof.Gen.KernelIdeal.Points
import proofs.«416810_j49228915147547_3_alg».proof.Proof.Gen.KernelIdeal.Frame
import proofs.«416810_j49228915147547_3_alg».proof.Proof.Gen.ReferenceIdeal
import proofs.«416810_j49228915147547_3_alg».proof.Proof.Gen.Pre_finite_inputs
import proofs.«416810_j49228915147547_3_alg».proof.Proof.Gen.ReferenceIdeal.Run
import proofs.«416810_j49228915147547_3_alg».proof.Proof.Gen.ReferenceIdeal.Read
import proofs.«416810_j49228915147547_3_alg».proof.Proof.Bridge
import Idealize.ShloMosaic.Adequacy
import Idealize.ShloMosaic.Init

noncomputable section

namespace Cert.Proof

open Idealize.ShloMosaic Idealize.SL.Sem Cert.Kernel

/-- The word-level kernel runs and keeps its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- One ledger entry: the table gives "inv_510" the value 1/510. -/
theorem entry : IdealRules.named_const.Statement Cert.KernelIdeal.κ "inv_510" .f32 0x3B008081#32 ((1 / 510 : ℝ) : EReal) :=
  IdealRules.named_const.statement Cert.KernelIdeal.κ "inv_510" .f32 0x3B008081#32 ((1 / 510 : ℝ) : EReal) rfl

/-- The four entries, one per unrolled batch of the body. -/
theorem preserves : Cert.preserves_Kernel_KernelIdeal := ⟨entry, entry, entry, entry⟩

/-- From memories that agree on the arguments both programs end at one value: the kernel at the mean over the
    batches of the masked means, the reference at its result term of the same arguments, which is that mean. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
